-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S1x1 : Shape := ⟨2, ![1, 1]⟩
abbrev S1x1x1024x1024 : Shape := ⟨4, ![1, 1, 1024, 1024]⟩
abbrev S1024x1024 : Shape := ⟨2, ![1024, 1024]⟩
abbrev S1024x1 : Shape := ⟨2, ![1024, 1]⟩
abbrev S1024x1023 : Shape := ⟨2, ![1024, 1023]⟩
abbrev S1x1024 : Shape := ⟨2, ![1, 1024]⟩
abbrev S1023x1024 : Shape := ⟨2, ![1023, 1024]⟩
abbrev S1024 : Shape := ⟨1, ![1024]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S1x1, .f32⟩
  | .hbm, ⟨3, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1, .f32⟩
  | .local _ .vmem, ⟨5, _⟩ => ⟨S1x1, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v52 : BitVec 1 := Scalar.cmpi .eq arg0 c15_i32
  let v53 : BitVec 32 := Scalar.extui v52
  let c0_i32_24 : BitVec 32 := 0#32
  let v54 : BitVec 1 := Scalar.cmpi .ne v53 c0_i32_24
  v54

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  slices_S1024x1024_o0_0_S1024x1023 : S1024x1024.Slices ![0, 0] S1024x1023
  concatenates_S1024x1_S1024x1023_S1024x1024_d1 : Shape.Concatenates [S1024x1, S1024x1023] S1024x1024 1
  slices_S1024x1024_o0_1_S1024x1023 : S1024x1024.Slices ![0, 1] S1024x1023
  concatenates_S1024x1023_S1024x1_S1024x1024_d1 : Shape.Concatenates [S1024x1023, S1024x1] S1024x1024 1
  slices_S1024x1024_o0_0_S1023x1024 : S1024x1024.Slices ![0, 0] S1023x1024
  concatenates_S1x1024_S1023x1024_S1024x1024_d0 : Shape.Concatenates [S1x1024, S1023x1024] S1024x1024 0
  slices_S1024x1024_o1_0_S1023x1024 : S1024x1024.Slices ![1, 0] S1023x1024
  concatenates_S1023x1024_S1x1024_S1024x1024_d0 : Shape.Concatenates [S1023x1024, S1x1024] S1024x1024 0
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S16x1x1024x1024.size a
  hwx0_0 : ∀ i : grid0.Coords, EltTy.bits .f32 = 32 ∨ (Rect.block (s := S16x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .f32 = 32 ∨ (Rect.block (s := S16x1x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1x1024x1024 : Shape := ⟨4, ![16, 1, 1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S_, .f32⟩
  | .hbm, ⟨3, _⟩ => ⟨S_, .f32⟩
  | .hbm, ⟨4, _⟩ => ⟨S16x1x1024x1024, .f32⟩
  | .hbm, ⟨5, _⟩ => ⟨S_, .f32⟩
  | .hbm, ⟨6, _⟩ => ⟨S16x1x1024x1024, .f32⟩
  | .hbm, ⟨7, _⟩ => ⟨S16x1x1024x1024, .i1⟩
  | .hbm, ⟨8, _⟩ => ⟨S_, .f32⟩
  | .hbm, ⟨9, _⟩ => ⟨S16x1x1024x1024, .f32⟩
  | .hbm, ⟨10, _⟩ => ⟨S16x1x1024x1024, .i1⟩
  | .hbm, ⟨11, _⟩ => ⟨S_, .f32⟩
  | .hbm, ⟨12, _⟩ => ⟨S_, .f32⟩
  | .hbm, ⟨13, _⟩ => ⟨S16x1x1024x1024, .f32⟩
  | .hbm, ⟨14, _⟩ => ⟨S16x1x1024x1024, .f32⟩
  | .hbm, ⟨15, _⟩ => ⟨S16x1x1024x1024, .f32⟩
  | .hbm, ⟨16, _⟩ => ⟨S_, .f32⟩
  | .hbm, ⟨17, _⟩ => ⟨S16x1x1024x1024, .f32⟩
  | .hbm, ⟨18, _⟩ => ⟨S16x1x1024x1024, .f32⟩
  | .hbm, ⟨19, _⟩ => ⟨S_, .f32⟩
  | .hbm, ⟨20, _⟩ => ⟨S16x1x1024x1024, .f32⟩
  | .hbm, ⟨21, _⟩ => ⟨S16x1x1024x1024, .f32⟩
  | .hbm, ⟨22, _⟩ => ⟨S16x1x1024x1024, .f32⟩
  | .hbm, ⟨23, _⟩ => ⟨S16x1x1024x1024, .f32⟩
  | .hbm, ⟨24, _⟩ => ⟨S16x1x1024x1024, .f32⟩
  | .hbm, ⟨25, _⟩ => ⟨S16x1x1024x1024, .f32⟩
  | .hbm, ⟨26, _⟩ => ⟨S16x1x1024x1024, .f32⟩
  | .hbm, ⟨27, _⟩ => ⟨S16x1x1024x1024, .f32⟩
  | .hbm, ⟨28, _⟩ => ⟨S16x1x1024x1024, .f32⟩
  | .hbm, ⟨29, _⟩ => ⟨S16x1x1024x1024, .f32⟩
  | .hbm, ⟨30, _⟩ => ⟨S16x1x1024x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_4 : Ref sig .tc := ⟨.hbm, 16, rfl⟩
abbrev main_call1_v0 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x1x1024x1024_S16x1x1024x1024_w1s1p0_0_w1s1p0_0_w3s1p1_1_w3s1p1_1 : S16x1x1024x1024.ReduceWindows (![1, 1, 3, 3] : Fin 4 → Nat) ![1, 1, 1, 1] ![0, 0, 1, 1] ![0, 0, 1, 1] S16x1x1024x1024
  h_S_ : 0 < S_.numel
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_

variable [Facts₀]

class Facts : Prop extends Facts₀ where

variable [Facts]
-- ==== Proof.Spec.lean ====
/-
  The loss both programs compute, as one function of the two argument arrays over the extended reals.

  Per pixel: a weight chosen by two comparisons against 1/2 — of the target itself (weight 20), else of the
  3×3 maximum of the target around the pixel (weight 5, else 1) — times the binary cross entropy with logits,
  `max(x, 0) − x·t + log(1 + exp(−|x|))`. The result is the sum over all pixels of all images divided by 2²⁴.

  The two programs pad the 3×3 window differently at the image's border (one with zeros, one with −∞), but the
  maximum is only ever compared with 1/2, and `1/2 < max(a, 0)` exactly when `1/2 < a`: both comparisons say
  "some pixel of the window, inside the image, has a target above 1/2" (`near`).
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

/-- One image. -/
abbrev Img : Shape := ⟨2, ![1024, 1024]⟩
/-- The batch of 16 one-channel images. -/
abbrev Batch : Shape := ⟨4, ![16, 1, 1024, 1024]⟩

/-- Image `b` of a batch. -/
def image (X : Batch.Idx → EReal) (b : Fin 16) : Img.Idx → EReal := fun y => X (ix4 b 0 (y 0) (y 1))

/-- Some pixel of the 3×3 window around `(r, q)`, clipped to the image, has a value above `c`. -/
def near (c : EReal) (T : Img.Idx → EReal) (r q : Fin 1024) : Prop :=
  ∃ r' q' : Fin 1024, r.val ≤ r'.val + 1 ∧ r'.val ≤ r.val + 1 ∧ q.val ≤ q'.val + 1 ∧ q'.val ≤ q.val + 1
    ∧ c < T (ix2 r' q')

/-- The weighted loss of one pixel from its logit `x`, its target `t` and the dilated target `d` there. -/
def pix (x t d : EReal) : EReal :=
  Scalar.select (Ideal.cmp .ogt t (Ideal.ofBits .f32 0x3F000000#32)) (Ideal.ofBits .f32 0x41A00000#32)
      (Scalar.select (Ideal.cmp .ogt d (Ideal.ofBits .f32 0x3F000000#32)) (Ideal.ofBits .f32 0x40A00000#32)
        (Ideal.ofBits .f32 0x3F800000#32))
    * ((max x (Ideal.ofBits .f32 0x00000000#32) - x * t)
        + Ideal.log1p (Ideal.exp (-(FloatOps.absf (F := Ideal) (φ := .f32) x))))

/-- The loss depends on the dilated target only through its comparison with 1/2. -/
theorem pix_congr (x t d d' : EReal)
    (h : Ideal.ofBits .f32 0x3F000000#32 < d ↔ Ideal.ofBits .f32 0x3F000000#32 < d') : pix x t d = pix x t d' := by
  unfold pix
  have e : Ideal.cmp .ogt d (Ideal.ofBits .f32 0x3F000000#32) = Ideal.cmp .ogt d' (Ideal.ofBits .f32 0x3F000000#32) := by
    unfold Ideal.cmp
    exact congrArg BitVec.ofBool (decide_eq_decide.mpr h)
  rw [e]

/-- The f32 pattern of zero is the extended real 0. -/
theorem ofBits_zero : Ideal.ofBits .f32 0x00000000#32 = 0 := by simp [Ideal.ofBits, Ideal.ieee]

/-- The f32 pattern of −∞ is the bottom element. -/
theorem ofBits_ninf : Ideal.ofBits .f32 0xFF800000#32 = ⊥ := by simp [Ideal.ofBits, Ideal.ieee]

/-- 1/2 is not below 0. -/
theorem half_not_lt_zero : ¬ Ideal.ofBits .f32 0x3F000000#32 < (0 : EReal) := by
  have h : Ideal.ofBits .f32 0x3F000000#32 = (((1 : ℝ) / 2 : ℝ) : EReal) := by
    simp [Ideal.ofBits, Ideal.ieee, -EReal.coe_mul]; norm_num
  rw [h, not_lt]
  exact_mod_cast (by norm_num : (0 : ℝ) ≤ 1 / 2)

/-- A pixel of the batch is an image's number and a pixel of that image. -/
def batchEquiv : Batch.Idx ≃ Fin 16 × Img.Idx where
  toFun j := (j 0, ix2 (j 2) (j 3))
  invFun p := ix4 p.1 0 (p.2 0) (p.2 1)
  left_inv j := by
    funext a
    match a with
    | ⟨0, _⟩ => rfl
    | ⟨1, _⟩ => exact Fin.ext (by have h := (j 1).isLt; show 0 = (j 1).val; simp at h; omega)
    | ⟨2, _⟩ => rfl
    | ⟨3, _⟩ => rfl
  right_inv p := Prod.ext rfl (eq_ix2 p.2).symm

/-- A sum over the batch's pixels, image by image. -/
theorem sum_batch {M : Type*} [AddCommMonoid M] (f : Batch.Idx → M) :
    ∑ j : Batch.Idx, f j = ∑ b : Fin 16, ∑ y : Img.Idx, f (ix4 b 0 (y 0) (y 1)) := by
  rw [← Equiv.sum_comp batchEquiv.symm f, Fintype.sum_prod_type]
  rfl

end Cert.Spec

end
-- ==== Proof.Dilate.lean ====
/-
  The kernel's 3×3 maximum of a [1024, 1024] image with ZEROS beyond the border, read at a pixel.

  The kernel takes the maximum along the columns first — of the image shifted one column right with a zero
  column in front, the image, and the image shifted one column left with a zero column behind — and then the
  same along the rows of that. A value `c` that is not below zero lies under this maximum at `(r, q)` exactly
  when it lies under the image at some pixel of the 3×3 window around `(r, q)` that is inside the image: the
  zero padding adds only comparisons `c < 0`, which fail.
-/
import proofs.«168985_j10505490006429_1_alg».proof.Proof.Gen.KernelIdeal.Skeleton
import proofs.«168985_j10505490006429_1_alg».proof.Proof.Spec
import Idealize.ShloMosaic.Lib.Pipeline.Value
import Idealize.ShloMosaic.Lib.ValueLayout
import Idealize.ShloMosaic.Lib.ValueIdx

noncomputable section

namespace Cert.KernelIdeal.Dilate

open Idealize.ShloMosaic Idealize.ShloMosaic.ValueIdx Cert.KernelIdeal Cert.KernelIdeal.Gen

variable {F : FTy → Type} [FloatOps F]

/-- The image shifted one column to the right, a zero column in front. -/
def colR (T : FVec F S1024x1024 .f32) : FVec F S1024x1024 .f32 :=
  concatenate S1024x1024 1 [⟨S1024x1, broadcast S1024x1 (Scalar.ofBits .f32 0x00000000#32)⟩,
    ⟨S1024x1023, extractStridedSlice S1024x1023 ![0, 0] T slices_S1024x1024_o0_0_S1024x1023⟩]
    concatenates_S1024x1_S1024x1023_S1024x1024_d1

/-- The image shifted one column to the left, a zero column behind. -/
def colL (T : FVec F S1024x1024 .f32) : FVec F S1024x1024 .f32 :=
  concatenate S1024x1024 1 [⟨S1024x1023, extractStridedSlice S1024x1023 ![0, 1] T slices_S1024x1024_o0_1_S1024x1023⟩,
    ⟨S1024x1, broadcast S1024x1 (Scalar.ofBits .f32 0x00000000#32)⟩]
    concatenates_S1024x1023_S1024x1_S1024x1024_d1

/-- The image shifted one row down, a zero row on top. -/
def rowD (T : FVec F S1024x1024 .f32) : FVec F S1024x1024 .f32 :=
  concatenate S1024x1024 0 [⟨S1x1024, broadcast S1x1024 (Scalar.ofBits .f32 0x00000000#32)⟩,
    ⟨S1023x1024, extractStridedSlice S1023x1024 ![0, 0] T slices_S1024x1024_o0_0_S1023x1024⟩]
    concatenates_S1x1024_S1023x1024_S1024x1024_d0

/-- The image shifted one row up, a zero row at the bottom. -/
def rowU (T : FVec F S1024x1024 .f32) : FVec F S1024x1024 .f32 :=
  concatenate S1024x1024 0 [⟨S1023x1024, extractStridedSlice S1023x1024 ![1, 0] T slices_S1024x1024_o1_0_S1023x1024⟩,
    ⟨S1x1024, broadcast S1x1024 (Scalar.ofBits .f32 0x00000000#32)⟩]
    concatenates_S1023x1024_S1x1024_S1024x1024_d0

/-- The maximum over each pixel's row neighbours. -/
def colMax (T : FVec F S1024x1024 .f32) : FVec F S1024x1024 .f32 :=
  maximumf (maximumf (colR T) T) (colL T)

/-- The kernel's dilated image: the 3×3 maximum, zeros beyond the border. -/
def dil (T : FVec F S1024x1024 .f32) : FVec F S1024x1024 .f32 :=
  maximumf (maximumf (rowD (colMax T)) (colMax T)) (rowU (colMax T))

/-- The weight payload of the kernel's body is two selects over the target block and its dilation. -/
theorem pay6_eq (v5 : Vec F S1x1x1024x1024 .f32) :
    k0_pay6 v5 = select (cmpf .ogt (k0_pay5 v5) (broadcast S1024x1024 (Scalar.ofBits .f32 0x3F000000#32)))
      (broadcast S1024x1024 (Scalar.ofBits .f32 0x41A00000#32))
      (select (cmpf .ogt (dil (k0_pay5 v5)) (broadcast S1024x1024 (Scalar.ofBits .f32 0x3F000000#32)))
        (broadcast S1024x1024 (Scalar.ofBits .f32 0x40A00000#32))
        (broadcast S1024x1024 (Scalar.ofBits .f32 0x3F800000#32))) := rfl

/-! ## The four shifted images read at a pixel -/

section Reads
variable (T : FVec Ideal S1024x1024 .f32) (r q : Fin 1024)

/-- In column 0 the right-shifted image is the zero in front. -/
theorem colR_zero (h : q.val = 0) : colR (F := Ideal) T (ix2 r q) = 0 := by
  unfold colR
  refine (concatenate_pair_apply_left (t := S1024x1024) (s₁ := S1024x1) (s₂ := S1024x1023) (1 : Fin 2) _ _ _
    (ix2 r q) rfl (ix2 r (⟨0, by omega⟩ : Fin 1)) ?_).trans ?_
  · intro b
    match b with
    | ⟨0, _⟩ => rfl
    | ⟨1, _⟩ => show 0 = q.val; omega
  · exact Cert.Spec.ofBits_zero

/-- Past column 0 the right-shifted image is the image one column to the left. -/
theorem colR_pos (h : 0 < q.val) :
    colR (F := Ideal) T (ix2 r q) = T (ix2 r (⟨q.val - 1, by have := q.isLt; omega⟩ : Fin 1024)) := by
  have hq := q.isLt
  unfold colR
  refine (concatenate_pair_apply_right (t := S1024x1024) (s₁ := S1024x1) (s₂ := S1024x1023) (1 : Fin 2) _ _ _
    (ix2 r q) rfl rfl (ix2 r (⟨q.val - 1, by omega⟩ : Fin 1023)) ?_ ?_).trans ?_
  · intro b hb
    match b with
    | ⟨0, _⟩ => rfl
    | ⟨1, _⟩ => exact absurd rfl hb
  · show q.val - 1 + 1 = q.val; omega
  · exact slice2_axis1_apply 0 T _ r _ _ (by show q.val - 1 = 0 + (q.val - 1); omega)

/-- In the last column the left-shifted image is the zero behind. -/
theorem colL_last (h : q.val = 1023) : colL (F := Ideal) T (ix2 r q) = 0 := by
  unfold colL
  refine (concatenate_pair_apply_right (t := S1024x1024) (s₁ := S1024x1023) (s₂ := S1024x1) (1 : Fin 2) _ _ _
    (ix2 r q) rfl rfl (ix2 r (⟨0, by omega⟩ : Fin 1)) ?_ ?_).trans ?_
  · intro b hb
    match b with
    | ⟨0, _⟩ => rfl
    | ⟨1, _⟩ => exact absurd rfl hb
  · show 0 + 1023 = q.val; omega
  · exact Cert.Spec.ofBits_zero

/-- Before the last column the left-shifted image is the image one column to the right. -/
theorem colL_lt (h : q.val < 1023) :
    colL (F := Ideal) T (ix2 r q) = T (ix2 r (⟨q.val + 1, by omega⟩ : Fin 1024)) := by
  unfold colL
  refine (concatenate_pair_apply_left (t := S1024x1024) (s₁ := S1024x1023) (s₂ := S1024x1) (1 : Fin 2) _ _ _
    (ix2 r q) rfl (ix2 r (⟨q.val, h⟩ : Fin 1023)) ?_).trans ?_
  · intro b
    match b with
    | ⟨0, _⟩ => rfl
    | ⟨1, _⟩ => rfl
  · exact slice2_axis1_apply 1 T _ r _ _ (by show q.val + 1 = 1 + q.val; omega)

/-- In row 0 the down-shifted image is the zero on top. -/
theorem rowD_zero (h : r.val = 0) : rowD (F := Ideal) T (ix2 r q) = 0 := by
  unfold rowD
  refine (concatenate_pair_apply_left (t := S1024x1024) (s₁ := S1x1024) (s₂ := S1023x1024) (0 : Fin 2) _ _ _
    (ix2 r q) rfl (ix2 (⟨0, by omega⟩ : Fin 1) q) ?_).trans ?_
  · intro b
    match b with
    | ⟨0, _⟩ => show 0 = r.val; omega
    | ⟨1, _⟩ => rfl
  · exact Cert.Spec.ofBits_zero

/-- Past row 0 the down-shifted image is the image one row up. -/
theorem rowD_pos (h : 0 < r.val) :
    rowD (F := Ideal) T (ix2 r q) = T (ix2 (⟨r.val - 1, by have := r.isLt; omega⟩ : Fin 1024) q) := by
  have hr := r.isLt
  unfold rowD
  refine (concatenate_pair_apply_right (t := S1024x1024) (s₁ := S1x1024) (s₂ := S1023x1024) (0 : Fin 2) _ _ _
    (ix2 r q) rfl rfl (ix2 (⟨r.val - 1, by omega⟩ : Fin 1023) q) ?_ ?_).trans ?_
  · intro b hb
    match b with
    | ⟨0, _⟩ => exact absurd rfl hb
    | ⟨1, _⟩ => rfl
  · show r.val - 1 + 1 = r.val; omega
  · exact slice2_axis0_apply 0 T _ _ q _ (by show r.val - 1 = 0 + (r.val - 1); omega)

/-- In the last row the up-shifted image is the zero at the bottom. -/
theorem rowU_last (h : r.val = 1023) : rowU (F := Ideal) T (ix2 r q) = 0 := by
  unfold rowU
  refine (concatenate_pair_apply_right (t := S1024x1024) (s₁ := S1023x1024) (s₂ := S1x1024) (0 : Fin 2) _ _ _
    (ix2 r q) rfl rfl (ix2 (⟨0, by omega⟩ : Fin 1) q) ?_ ?_).trans ?_
  · intro b hb
    match b with
    | ⟨0, _⟩ => exact absurd rfl hb
    | ⟨1, _⟩ => rfl
  · show 0 + 1023 = r.val; omega
  · exact Cert.Spec.ofBits_zero

/-- Before the last row the up-shifted image is the image one row down. -/
theorem rowU_lt (h : r.val < 1023) :
    rowU (F := Ideal) T (ix2 r q) = T (ix2 (⟨r.val + 1, by omega⟩ : Fin 1024) q) := by
  unfold rowU
  refine (concatenate_pair_apply_left (t := S1024x1024) (s₁ := S1023x1024) (s₂ := S1x1024) (0 : Fin 2) _ _ _
    (ix2 r q) rfl (ix2 (⟨r.val, h⟩ : Fin 1023) q) ?_).trans ?_
  · intro b
    match b with
    | ⟨0, _⟩ => rfl
    | ⟨1, _⟩ => rfl
  · exact slice2_axis0_apply 1 T _ _ q _ (by show r.val + 1 = 1 + r.val; omega)

end Reads

/-! ## A value not below zero under a shifted image: the zero border never holds it -/

section Under
variable (T : FVec Ideal S1024x1024 .f32) (c : EReal) (hc : ¬ c < 0) (r q : Fin 1024)
include hc

/-- Under the right-shifted image: under the image one column to the left, if there is one. -/
theorem lt_colR_iff : c < colR (F := Ideal) T (ix2 r q) ↔ ∃ q' : Fin 1024, q'.val + 1 = q.val ∧ c < T (ix2 r q') := by
  have hq := q.isLt
  by_cases h : q.val = 0
  · rw [colR_zero T r q h]
    exact ⟨fun h' => absurd h' hc, fun ⟨q', hq', _⟩ => by omega⟩
  · rw [colR_pos T r q (by omega)]
    refine ⟨fun h' => ⟨_, by show q.val - 1 + 1 = q.val; omega, h'⟩, ?_⟩
    rintro ⟨q', hq', h'⟩
    have e : q' = (⟨q.val - 1, by omega⟩ : Fin 1024) := Fin.ext (by show q'.val = q.val - 1; omega)
    rw [e] at h'
    exact h'

/-- Under the left-shifted image: under the image one column to the right, if there is one. -/
theorem lt_colL_iff : c < colL (F := Ideal) T (ix2 r q) ↔ ∃ q' : Fin 1024, q'.val = q.val + 1 ∧ c < T (ix2 r q') := by
  have hq := q.isLt
  by_cases h : q.val = 1023
  · rw [colL_last T r q h]
    exact ⟨fun h' => absurd h' hc, fun ⟨q', hq', _⟩ => by have := q'.isLt; omega⟩
  · rw [colL_lt T r q (by omega)]
    refine ⟨fun h' => ⟨_, by show q.val + 1 = q.val + 1; rfl, h'⟩, ?_⟩
    rintro ⟨q', hq', h'⟩
    have e : q' = (⟨q.val + 1, by omega⟩ : Fin 1024) := Fin.ext (by show q'.val = q.val + 1; omega)
    rw [e] at h'
    exact h'

/-- Under the down-shifted image: under the image one row up, if there is one. -/
theorem lt_rowD_iff : c < rowD (F := Ideal) T (ix2 r q) ↔ ∃ r' : Fin 1024, r'.val + 1 = r.val ∧ c < T (ix2 r' q) := by
  have hr := r.isLt
  by_cases h : r.val = 0
  · rw [rowD_zero T r q h]
    exact ⟨fun h' => absurd h' hc, fun ⟨r', hr', _⟩ => by omega⟩
  · rw [rowD_pos T r q (by omega)]
    refine ⟨fun h' => ⟨_, by show r.val - 1 + 1 = r.val; omega, h'⟩, ?_⟩
    rintro ⟨r', hr', h'⟩
    have e : r' = (⟨r.val - 1, by omega⟩ : Fin 1024) := Fin.ext (by show r'.val = r.val - 1; omega)
    rw [e] at h'
    exact h'

/-- Under the up-shifted image: under the image one row down, if there is one. -/
theorem lt_rowU_iff : c < rowU (F := Ideal) T (ix2 r q) ↔ ∃ r' : Fin 1024, r'.val = r.val + 1 ∧ c < T (ix2 r' q) := by
  have hr := r.isLt
  by_cases h : r.val = 1023
  · rw [rowU_last T r q h]
    exact ⟨fun h' => absurd h' hc, fun ⟨r', hr', _⟩ => by have := r'.isLt; omega⟩
  · rw [rowU_lt T r q (by omega)]
    refine ⟨fun h' => ⟨_, by show r.val + 1 = r.val + 1; rfl, h'⟩, ?_⟩
    rintro ⟨r', hr', h'⟩
    have e : r' = (⟨r.val + 1, by omega⟩ : Fin 1024) := Fin.ext (by show r'.val = r.val + 1; omega)
    rw [e] at h'
    exact h'

/-- Under the maximum along the columns: under the image at a column at most one away. -/
theorem lt_colMax_iff : c < colMax (F := Ideal) T (ix2 r q)
    ↔ ∃ q' : Fin 1024, q.val ≤ q'.val + 1 ∧ q'.val ≤ q.val + 1 ∧ c < T (ix2 r q') := by
  unfold colMax
  rw [maximumf_apply, maximumf_apply, lt_max_iff, lt_max_iff, lt_colR_iff T c hc, lt_colL_iff T c hc]
  constructor
  · rintro ((⟨q', hq', h'⟩ | h') | ⟨q', hq', h'⟩)
    · exact ⟨q', by omega, by omega, h'⟩
    · exact ⟨q, by omega, by omega, h'⟩
    · exact ⟨q', by omega, by omega, h'⟩
  · rintro ⟨q', h1, h2, h'⟩
    by_cases e1 : q'.val + 1 = q.val
    · exact Or.inl (Or.inl ⟨q', e1, h'⟩)
    · by_cases e2 : q'.val = q.val + 1
      · exact Or.inr ⟨q', e2, h'⟩
      · obtain rfl : q' = q := Fin.ext (by omega)
        exact Or.inl (Or.inr h')

/-- Under the maximum along the rows of any image: under that image at a row at most one away. -/
theorem lt_rowMax_iff (X : FVec Ideal S1024x1024 .f32) :
    c < maximumf (maximumf (rowD (F := Ideal) X) X) (rowU (F := Ideal) X) (ix2 r q)
    ↔ ∃ r' : Fin 1024, r.val ≤ r'.val + 1 ∧ r'.val ≤ r.val + 1 ∧ c < X (ix2 r' q) := by
  rw [maximumf_apply, maximumf_apply, lt_max_iff, lt_max_iff, lt_rowD_iff X c hc, lt_rowU_iff X c hc]
  constructor
  · rintro ((⟨r', hr', h'⟩ | h') | ⟨r', hr', h'⟩)
    · exact ⟨r', by omega, by omega, h'⟩
    · exact ⟨r, by omega, by omega, h'⟩
    · exact ⟨r', by omega, by omega, h'⟩
  · rintro ⟨r', h1, h2, h'⟩
    by_cases e1 : r'.val + 1 = r.val
    · exact Or.inl (Or.inl ⟨r', e1, h'⟩)
    · by_cases e2 : r'.val = r.val + 1
      · exact Or.inr ⟨r', e2, h'⟩
      · obtain rfl : r' = r := Fin.ext (by omega)
        exact Or.inl (Or.inr h')

end Under

/-- A value not below zero is under the kernel's dilation at a pixel exactly when it is under the image
    somewhere in the pixel's 3×3 window inside the image. -/
theorem lt_dil_iff (T : FVec Ideal S1024x1024 .f32) (c : EReal) (hc : ¬ c < 0) (r q : Fin 1024) :
    c < dil (F := Ideal) T (ix2 r q) ↔ Cert.Spec.near c T r q := by
  unfold dil Cert.Spec.near
  rw [lt_rowMax_iff c hc r q (colMax (F := Ideal) T)]
  constructor
  · rintro ⟨r', h1, h2, h'⟩
    obtain ⟨q', h3, h4, h''⟩ := (lt_colMax_iff T c hc r' q).1 h'
    exact ⟨r', q', h1, h2, h3, h4, h''⟩
  · rintro ⟨r', q', h1, h2, h3, h4, h''⟩
    exact ⟨r', h1, h2, (lt_colMax_iff T c hc r' q).2 ⟨q', h3, h4, h''⟩⟩

end Cert.KernelIdeal.Dilate

end
-- ==== Proof.Window.lean ====
/-
  The reference's 3×3 window maximum over a batch of images, padded with −∞, read at a pixel.

  `stablehlo.reduce_window` folds `max` from the initial value over the nine positions of the window around the
  pixel, taking the initial value where a position falls outside the image. From −∞ a value `c` lies under
  that fold exactly when it lies under the image at one of the positions that are inside it.
-/
import proofs.«168985_j10505490006429_1_alg».proof.Proof.Spec
import Idealize.ShloMosaic.PureOps.Ideal
import Idealize.ShloMosaic.Lib.ValueIdx

noncomputable section

namespace Cert.Window

open Idealize.ShloMosaic Idealize.ShloMosaic.ValueIdx Cert.Spec

/-- A value lies under a left fold of `max` exactly when it lies under the starting value or under one of the
    folded terms. -/
theorem lt_foldl_max_iff {ι : Type} (g : ι → EReal) (c : EReal) (l : List ι) (v : EReal) :
    c < l.foldl (fun r n => max r (g n)) v ↔ c < v ∨ ∃ n ∈ l, c < g n := by
  induction l generalizing v with
  | nil => simp
  | cons a l ih =>
    rw [List.foldl_cons, ih, lt_max_iff]
    constructor
    · rintro ((h | h) | ⟨n, hn, h⟩)
      · exact Or.inl h
      · exact Or.inr ⟨a, List.mem_cons.mpr (Or.inl rfl), h⟩
      · exact Or.inr ⟨n, List.mem_cons_of_mem _ hn, h⟩
    · rintro (h | ⟨n, hn, h⟩)
      · exact Or.inl (Or.inl h)
      · rcases List.mem_cons.mp hn with rfl | hn
        · exact Or.inl (Or.inr h)
        · exact Or.inr ⟨n, hn, h⟩

/-- A value lies under "the term where the condition holds, else −∞" exactly when the condition holds and the
    value lies under the term. -/
theorem lt_dite_bot_iff {P : Prop} [Decidable P] (c : EReal) (f : P → EReal) :
    c < (if h : P then f h else ⊥) ↔ ∃ h : P, c < f h := by
  by_cases hP : P
  · simp [hP]
  · simp [hP]

/-- From −∞, a value lies under the window maximum at `j` exactly when some window position `w` falls inside the
    operand and the value lies under the operand there. -/
theorem lt_reduceWindow_bot_iff {s t u : Shape} (window strides lo hi : Fin s.rank → Nat) (x : s.Idx → EReal)
    (init : u.Idx → EReal) (h : s.ReduceWindows window strides lo hi t) (hu : 0 < u.numel)
    (hinit : init (Shape.Idx.first hu) = ⊥) (c : EReal) (j : t.Idx) :
    c < Host.reduceWindow (FloatOps.maximumf (F := Ideal) (φ := .f32)) window strides lo hi x init h hu j ↔
      ∃ w : (⟨s.rank, window⟩ : Shape).Idx,
        ∃ hin : ∀ a, lo a ≤ (j (a.cast h.1.symm)).val * strides a + (w a).val
            ∧ (j (a.cast h.1.symm)).val * strides a + (w a).val - lo a < s.size a,
          c < x (fun a => ⟨(j (a.cast h.1.symm)).val * strides a + (w a).val - lo a, (hin a).2⟩) := by
  unfold Host.reduceWindow
  rw [hinit]
  refine (lt_foldl_max_iff _ c _ _).trans ?_
  constructor
  · rintro (h0 | ⟨n, -, hn⟩)
    · exact absurd h0 (not_lt_bot)
    · exact ⟨_, (lt_dite_bot_iff _ _).mp hn⟩
  · rintro ⟨w, hw⟩
    obtain ⟨n, rfl⟩ : ∃ n, (⟨s.rank, window⟩ : Shape).rowMajor.symm n = w := ⟨_, Equiv.symm_apply_apply _ w⟩
    exact Or.inr ⟨n, List.mem_finRange n, (lt_dite_bot_iff _ _).mpr hw⟩

/-- A value is under the −∞-padded 3×3 window maximum at pixel `(r, q)` of image `b` exactly when it is under
    that image somewhere in the pixel's 3×3 window inside the image. -/
theorem lt_reduceWindow_iff (X : Batch.Idx → EReal) (init : (⟨0, ![]⟩ : Shape).Idx → EReal)
    (h : Batch.ReduceWindows (![1, 1, 3, 3] : Fin 4 → Nat) ![1, 1, 1, 1] ![0, 0, 1, 1] ![0, 0, 1, 1] Batch)
    (hu : 0 < (⟨0, ![]⟩ : Shape).numel) (hinit : init (Shape.Idx.first hu) = ⊥)
    (c : EReal) (b : Fin 16) (r q : Fin 1024) :
    c < Host.reduceWindow (FloatOps.maximumf (F := Ideal) (φ := .f32)) ![1, 1, 3, 3] ![1, 1, 1, 1] ![0, 0, 1, 1] ![0, 0, 1, 1]
          X init h hu (ix4 b 0 r q)
      ↔ near c (image X b) r q := by
  rw [lt_reduceWindow_bot_iff _ _ _ _ X init h hu hinit]
  constructor
  · -- a window position inside the image gives a neighbouring pixel
    rintro ⟨w, hin, hlt⟩
    have h2 : 1 ≤ r.val * 1 + (w 2).val ∧ r.val * 1 + (w 2).val - 1 < 1024 := hin 2
    have h3 : 1 ≤ q.val * 1 + (w 3).val ∧ q.val * 1 + (w 3).val - 1 < 1024 := hin 3
    have hw0 : (w 0).val < 1 := (w 0).isLt
    have hw1 : (w 1).val < 1 := (w 1).isLt
    have hw2 : (w 2).val < 3 := (w 2).isLt
    have hw3 : (w 3).val < 3 := (w 3).isLt
    refine ⟨⟨r.val + (w 2).val - 1, by omega⟩, ⟨q.val + (w 3).val - 1, by omega⟩, ?_, ?_, ?_, ?_, ?_⟩
    · show r.val ≤ r.val + (w 2).val - 1 + 1; omega
    · show r.val + (w 2).val - 1 ≤ r.val + 1; omega
    · show q.val ≤ q.val + (w 3).val - 1 + 1; omega
    · show q.val + (w 3).val - 1 ≤ q.val + 1; omega
    · refine hlt.trans_eq (congrArg X ?_)
      funext a
      match a with
      | ⟨0, _⟩ => exact Fin.ext (by show b.val * 1 + (w 0).val - 0 = b.val; omega)
      | ⟨1, _⟩ => exact Fin.ext (by show 0 * 1 + (w 1).val - 0 = 0; omega)
      | ⟨2, _⟩ => exact Fin.ext (by show r.val * 1 + (w 2).val - 1 = r.val + (w 2).val - 1; omega)
      | ⟨3, _⟩ => exact Fin.ext (by show q.val * 1 + (w 3).val - 1 = q.val + (w 3).val - 1; omega)
  · -- a neighbouring pixel is the window position at its offset from the pixel, plus one
    rintro ⟨r', q', h1, h2, h3, h4, hlt⟩
    have hr := r.isLt
    have hq := q.isLt
    have hr' := r'.isLt
    have hq' := q'.isLt
    refine ⟨ix4 (0 : Fin 1) (0 : Fin 1) (⟨r'.val + 1 - r.val, by omega⟩ : Fin 3) (⟨q'.val + 1 - q.val, by omega⟩ : Fin 3),
      ?_, ?_⟩
    · intro a
      match a with
      | ⟨0, _⟩ => show 0 ≤ b.val * 1 + 0 ∧ b.val * 1 + 0 - 0 < 16; omega
      | ⟨1, _⟩ => show 0 ≤ 0 * 1 + 0 ∧ 0 * 1 + 0 - 0 < 1; omega
      | ⟨2, _⟩ =>
        show 1 ≤ r.val * 1 + (r'.val + 1 - r.val) ∧ r.val * 1 + (r'.val + 1 - r.val) - 1 < 1024; omega
      | ⟨3, _⟩ =>
        show 1 ≤ q.val * 1 + (q'.val + 1 - q.val) ∧ q.val * 1 + (q'.val + 1 - q.val) - 1 < 1024; omega
    · refine hlt.trans_eq (congrArg X ?_)
      funext a
      match a with
      | ⟨0, _⟩ => exact Fin.ext (by show b.val = b.val * 1 + 0 - 0; omega)
      | ⟨1, _⟩ => exact Fin.ext (by show 0 = 0 * 1 + 0 - 0; omega)
      | ⟨2, _⟩ => exact Fin.ext (by show r'.val = r.val * 1 + (r'.val + 1 - r.val) - 1; omega)
      | ⟨3, _⟩ => exact Fin.ext (by show q'.val = q.val * 1 + (q'.val + 1 - q.val) - 1; omega)

end Cert.Window

end
-- ==== Proof.RefValue.lean ====
/-
  The reference's result, at the extended reals: the sum over every pixel of the batch of the specification's loss,
  with the −∞-padded 3×3 window maximum as the dilated target, from the zero word, divided by 2²⁴.
-/
import proofs.«168985_j10505490006429_1_alg».proof.Proof.Gen.ReferenceIdeal.Read
import proofs.«168985_j10505490006429_1_alg».proof.Proof.Spec

noncomputable section

namespace Cert.ReferenceIdeal.RefValue

open Idealize.ShloMosaic Cert.ReferenceIdeal Cert.ReferenceIdeal.Read

/-- The weighted loss the reference sums, at a pixel of the batch. -/
theorem v18_apply (x0 x1 : S16x1x1024x1024.Idx → EReal) (j : S16x1x1024x1024.Idx) :
    val_main_v18 (F := Ideal) x0 x1 j = Cert.Spec.pix (x0 j) (x1 j) (val_main_v1 (F := Ideal) x1 j) := by
  rfl

/-- The reference's result. -/
theorem v20_apply (x0 x1 : S16x1x1024x1024.Idx → EReal) (i : S_.Idx) :
    val_main_v20 (F := Ideal) x0 x1 i
      = Ideal.div (Ideal.ofBits .f32 0x00000000#32
          + ∑ j : S16x1x1024x1024.Idx, Cert.Spec.pix (x0 j) (x1 j) (val_main_v1 (F := Ideal) x1 j))
        (Ideal.ofBits .f32 0x4B800000#32) := by
  rw [val_main_v20_apply, val_main_v19_apply]
  simp only [v18_apply]
  rfl

end Cert.ReferenceIdeal.RefValue

end
-- ==== Proof.Bridge.lean ====
/-
  The two programs' results are one number.

  The reference sums the loss over every pixel of the batch from the zero word; the kernel sums image by image.
  Pixel by pixel the two losses differ only in the dilated target — the −∞-padded window maximum against the
  zero-padded one — and the loss looks at it only through `1/2 < ·`, which for both says that some pixel of the
  3×3 window inside the image has a target above 1/2. The sums then agree term by term, re-indexed image by image.
-/
import proofs.«168985_j10505490006429_1_alg».proof.Proof.Spec
import proofs.«168985_j10505490006429_1_alg».proof.Proof.Dilate
import proofs.«168985_j10505490006429_1_alg».proof.Proof.Window
import proofs.«168985_j10505490006429_1_alg».proof.Proof.RefValue

noncomputable section

namespace Cert.Bridge

open Idealize.ShloMosaic Idealize.ShloMosaic.ValueIdx Cert.Spec

/-- The result both programs compute, in the kernel's arrangement: image by image, the dilation zero-padded. -/
def total (x0 x1 : Batch.Idx → EReal) : EReal :=
  Ideal.div (∑ b : Fin 16, ∑ y : Img.Idx,
      pix (image x0 b y) (image x1 b y) (Cert.KernelIdeal.Dilate.dil (F := Ideal) (image x1 b) y))
    (Ideal.ofBits .f32 0x4B800000#32)

/-- The reference's −∞-padded window maximum and the kernel's zero-padded one are above 1/2 at the same pixels. -/
theorem half_lt_iff (x1 : Batch.Idx → EReal) (b : Fin 16) (y : Img.Idx) :
    Ideal.ofBits .f32 0x3F000000#32 < Cert.ReferenceIdeal.Read.val_main_v1 (F := Ideal) x1 (ix4 b 0 (y 0) (y 1))
      ↔ Ideal.ofBits .f32 0x3F000000#32 < Cert.KernelIdeal.Dilate.dil (F := Ideal) (image x1 b) y := by
  have e : Cert.KernelIdeal.Dilate.dil (F := Ideal) (image x1 b) y
      = Cert.KernelIdeal.Dilate.dil (F := Ideal) (image x1 b) (ix2 (y 0) (y 1)) := congrArg _ (eq_ix2 y)
  rw [e, Cert.KernelIdeal.Dilate.lt_dil_iff (image x1 b) _ half_not_lt_zero (y 0) (y 1)]
  unfold Cert.ReferenceIdeal.Read.val_main_v1
  exact Cert.Window.lt_reduceWindow_iff x1 _ _ _ ofBits_ninf _ b (y 0) (y 1)

/-- The reference's result is that number. -/
theorem ref_eq (x0 x1 : Batch.Idx → EReal) (i : Cert.ReferenceIdeal.S_.Idx) :
    Cert.ReferenceIdeal.Read.val_main_v20 (F := Ideal) x0 x1 i = total x0 x1 := by
  rw [Cert.ReferenceIdeal.RefValue.v20_apply, ofBits_zero, zero_add]
  unfold total
  congr 1
  rw [sum_batch]
  refine Finset.sum_congr rfl fun b _ => Finset.sum_congr rfl fun y _ => ?_
  exact pix_congr _ _ _ _ (half_lt_iff x1 b y)

end Cert.Bridge

end
-- ==== Proof.Pieces.lean ====
/-
  What each case of the kernel's body leaves behind, as values: the accumulator word after the point, and at the
  last point the output word.

  At the first point the body stores a zero into the accumulator, reads it back and adds the image's sum; at every
  later point it adds the image's sum to what the point before left; at the last point it also writes the
  accumulator divided by 2²⁴ to the output.
-/
import proofs.«168985_j10505490006429_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The accumulator's word after a point: the payload of the body's accumulating store, over the point's two input
    blocks and the word the accumulator held. -/
abbrev acc (x0 x1 : Vec F S1x1x1024x1024 .f32) (xs : Vec F S1x1 .f32) : Vec F S1x1 .f32 :=
  k0_pay1 (k0_pay6 x1) (k0_pay7 x0) (k0_pay8 x0 x1) (Scalar.ofBits .f32 0x00000000#32) xs

/-- A middle point: the accumulator holds what it held plus the image's sum. -/
theorem sout_B (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S1x1x1024x1024 .f32) (xs0 : Vec F S1x1 .f32) :
    sout0_B_0 c i a1 h1 a2 h2 a3 h3 a4 h4 hc0 hc1 x0 x1 xs0 = acc x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread,
    View.ld_unit_zero (S := S1x1x1024x1024) hz4, View.ld_unit_zero (S := S1x1) hz2]

/-- The last point: the accumulator as at a middle point. -/
theorem sout_C (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x1x1024x1024 .f32) (xs0 : Vec F S1x1 .f32) :
    sout0_C_0 c i a1 h1 a2 h2 a3 h3 a4 h4 hc0 hc1 x0 x1 xs0 = acc x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread,
    View.ld_unit_zero (S := S1x1x1024x1024) hz4, View.ld_unit_zero (S := S1x1) hz2]

/-- The last point: the output word is the accumulator's new word divided by 2²⁴. -/
theorem out_C (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x1x1024x1024 .f32) (xs0 : Vec F S1x1 .f32) :
    out0_C_2 c i a1 h1 a2 h2 a3 h3 a4 h4 hc0 hc1 x0 x1 xs0 = k0_pay2 (acc x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2, View.readCov_unit_zero (S := S1x1) _ hz2]
  simp only [View.readAt_eq_ld, h1.read_unread, h2.read_unread, h4.read_unread,
    View.ld_unit_zero (S := S1x1x1024x1024) hz4, View.ld_unit_zero (S := S1x1) hz2]

/-- The first point: the accumulator holds the zero word plus the image's sum. -/
theorem sout_A (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S1x1x1024x1024 .f32) :
    sout0_A_0 c i a1 h1 a2 h2 a3 h3 a4 h4 hc0 hc1 x0 x1 = acc x0 x1 k0_pay3 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S1x1x1024x1024) hz4, View.ld_unit_zero (S := S1x1) hz2]

end Cert.KernelIdeal.Pieces

end
-- ==== Proof.Point.lean ====
/-
  What one grid point of the kernel computes, at the extended reals: the payloads of its three stores.

  The body multiplies, pixel by pixel, the weight (two comparisons with 1/2: of the target and of its zero-padded
  3×3 maximum) with `max(x, 0) − x·t + log(1 + exp(0 − |x|))`, sums each row along the lanes, sums the row sums,
  and adds the total to the one-word accumulator. Over the extended reals `0 − a = −a`, and a sum of row sums is
  the sum over all pixels.
-/
import proofs.«168985_j10505490006429_1_alg».proof.Proof.Gen.KernelIdeal.Skeleton
import proofs.«168985_j10505490006429_1_alg».proof.Proof.Spec
import proofs.«168985_j10505490006429_1_alg».proof.Proof.Dilate
import Idealize.ShloMosaic.Lib.Pipeline.Value
import Idealize.ShloMosaic.Lib.ValueIdx
import Idealize.ShloMosaic.PureOps.Ideal.Laws

noncomputable section

namespace Cert.KernelIdeal.Point

open Idealize.ShloMosaic Idealize.ShloMosaic.ValueIdx Cert.KernelIdeal Cert.KernelIdeal.Gen Cert.KernelIdeal.Dilate

/-- The weighted loss of every pixel of one image, from the point's logit block `x0` and target block `x1`. -/
def lossImg (x0 x1 : Vec Ideal S1x1x1024x1024 .f32) : FVec Ideal S1024x1024 .f32 :=
  mulf (k0_pay6 x1) (addf (k0_pay8 x0 x1)
    (log1p (exp (subf (broadcast S1024x1024 (Scalar.ofBits .f32 0x00000000#32)) (k0_pay7 x0)))))

/-- At a pixel it is the specification's loss of the pixel's logit, target and zero-padded dilated target. -/
theorem lossImg_apply (x0 x1 : Vec Ideal S1x1x1024x1024 .f32) (y : S1024x1024.Idx) :
    lossImg x0 x1 y = Cert.Spec.pix (k0_pay4 x0 y) (k0_pay5 x1 y) (dil (k0_pay5 x1) y) := by
  unfold lossImg
  rw [pay6_eq]
  have e : ∀ a : EReal, Ideal.ofBits .f32 0x00000000#32 - a = -a := fun a => by
    rw [Cert.Spec.ofBits_zero, zero_sub]
  show _ * (_ + Ideal.log1p (Ideal.exp (Ideal.ofBits .f32 0x00000000#32 - _))) = _
  rw [e]
  rfl

/-- The row sums along the lanes, then the sum of the row sums, is the sum over every pixel. -/
theorem total_eq (W : FVec Ideal S1024x1024 .f32) (hφ : FKind.Formats .f32)
    (hacc : (0x00000000#32 : BitVec FTy.f32.bits) = FKind.add.neutral .f32 hφ) (i : S1x1.Idx) :
    shapeCast S1x1 (multiReduction .add [0] S1
        (shapeCast S1024x1 (multiReduction .add [1] S1024 W 0x00000000#32 reduces_S1024x1024_S1024 hφ hacc)
          shapeCasts_S1024_S1024x1)
        0x00000000#32 reduces_S1024x1_S1 hφ hacc) shapeCasts_S1_S1x1 i
      = ∑ y : S1024x1024.Idx, W y := by
  rw [shapeCast_apply _ shapeCasts_S1_S1x1 i (ix1 (0 : Fin 1)) (by
    rw [Shape.rowMajor_val_one, Shape.rowMajor_val_two]
    have h0 := (i 0).isLt; have h1 := (i 1).isLt
    simp at h0 h1 ⊢; omega)]
  rw [Ideal.multiReduction_add_total _ _ reduces_S1024x1_S1 (fun b => by fin_cases b; rfl)]
  rw [sum_idx2, sum_idx2]
  refine Finset.sum_congr rfl fun a _ => ?_
  rw [Fin.sum_univ_one]
  rw [shapeCast_apply _ shapeCasts_S1024_S1024x1 (ix2 a (0 : Fin 1)) (ix1 a) (by
    rw [Shape.rowMajor_val_one, Shape.rowMajor_val_two]; simp)]
  rw [Ideal.multiReduction_add_single]
  refine Finset.sum_congr rfl fun b _ => ?_
  congr 1
  funext d
  match d with
  | ⟨0, _⟩ => rfl
  | ⟨1, _⟩ => rfl

/-- The sum of an image's losses: what a grid point adds to the accumulator. -/
def imgSum (x0 x1 : Vec Ideal S1x1x1024x1024 .f32) : EReal := ∑ y : S1024x1024.Idx, lossImg x0 x1 y

/-- The accumulator's new word: the word it held plus the image's sum. -/
theorem pay1_apply (x0 x1 : Vec Ideal S1x1x1024x1024 .f32) (xs : Vec Ideal S1x1 .f32) (i : S1x1.Idx) :
    k0_pay1 (k0_pay6 x1) (k0_pay7 x0) (k0_pay8 x0 x1) (Scalar.ofBits .f32 0x00000000#32) xs i
      = xs i + imgSum x0 x1 := by
  unfold k0_pay1
  rw [shapeCast_self]
  exact congrArg (fun z => xs i + z) (total_eq _ _ _ i)

/-- The output word: the accumulator's word divided by 2²⁴. -/
theorem pay2_apply (v : Vec Ideal S1x1 .f32) (i : S1x1.Idx) :
    k0_pay2 v i = Ideal.div (v i) (Ideal.ofBits .f32 0x4B800000#32) := rfl

/-- The reset stores the zero word. -/
theorem pay3_apply (i : S1x1.Idx) : k0_pay3 (F := Ideal) i = Ideal.ofBits .f32 0x00000000#32 := rfl

end Cert.KernelIdeal.Point

end
-- ==== Proof.KRun.lean ====
/-
  The kernel's run read as a value: after the last of its sixteen grid points the one-word result array holds the
  sum of the sixteen images' loss sums divided by 2²⁴, and the host's reshape after the call makes that the scalar
  result.

  The accumulator after point `n` is the sum of the images' sums up to `n`: the first point stores a zero and adds
  its image's sum to it (`0 + a = a`), every later point adds its image's sum to what the point before left —
  an induction over the points, never an enumeration of them.
-/
import proofs.«168985_j10505490006429_1_alg».proof.Proof.Gen.KernelIdeal.Frame
import proofs.«168985_j10505490006429_1_alg».proof.Proof.Pieces
import proofs.«168985_j10505490006429_1_alg».proof.Proof.Point
import proofs.«168985_j10505490006429_1_alg».proof.Proof.Spec
import proofs.«168985_j10505490006429_1_alg».proof.Proof.Bridge
import Idealize.ShloMosaic.Lib.Pipeline.Value
import Idealize.ShloMosaic.Lib.StableHlo.Run
import Idealize.ShloMosaic.Lib.Tactic

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The logit block and the target block of point `t`. -/
abbrev xblk (c : Dev nD) (t : Fin cfg0.N) : Vec Ideal S1x1x1024x1024 .f32 := iblk m c 0 t
abbrev tblk (c : Dev nD) (t : Fin cfg0.N) : Vec Ideal S1x1x1024x1024 .f32 := iblk m c 1 t

/-- What the first point leaves in the accumulator. -/
theorem acc_A (c : Dev nD) (t : Fin cfg0.N) (h0 : t.val % 16 = 0) (h1 : ¬t.val % 16 = 15) :
    (outsAt0 m c t.val t.isLt).2 = Pieces.acc (xblk m c t) (tblk m c t) (k0_pay3 (F := Ideal)) := by
  rw [outsAt0_A m c t h0 h1]
  dsimp only
  exact Pieces.sout_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)

/-- What a middle point leaves in the accumulator, over what the point before left. -/
theorem acc_B (c : Dev nD) (t : Fin cfg0.N) (h0 : ¬t.val % 16 = 0) (h1 : ¬t.val % 16 = 15) :
    (outsAt0 m c t.val t.isLt).2
      = Pieces.acc (xblk m c t) (tblk m c t) (outsAt0 m c (t.val - 1) (Nat.lt_of_le_of_lt (Nat.sub_le _ _) t.isLt)).2 := by
  rw [outsAt0_B m c t h0 h1]
  dsimp only
  exact Pieces.sout_B (F := Ideal) c (grid0.coords t) (ms0_0 t) (hs0_0 t) (ms0_1 t) (hs0_1 t) (ms0_2 t) (hs0_2 t)
    scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- What the last point leaves in the accumulator, -/
theorem acc_C (c : Dev nD) (t : Fin cfg0.N) (h0 : ¬t.val % 16 = 0) (h1 : t.val % 16 = 15) :
    (outsAt0 m c t.val t.isLt).2
      = Pieces.acc (xblk m c t) (tblk m c t) (outsAt0 m c (t.val - 1) (Nat.lt_of_le_of_lt (Nat.sub_le _ _) t.isLt)).2 := by
  rw [outsAt0_C m c t h0 h1]
  dsimp only
  exact Pieces.sout_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and in the output's staging word. -/
theorem out_C (c : Dev nD) (t : Fin cfg0.N) (h0 : ¬t.val % 16 = 0) (h1 : t.val % 16 = 15) :
    (outsAt0 m c t.val t.isLt).1
      = k0_pay2 (Pieces.acc (xblk m c t) (tblk m c t) (outsAt0 m c (t.val - 1) (Nat.lt_of_le_of_lt (Nat.sub_le _ _) t.isLt)).2) := by
  rw [outsAt0_C m c t h0 h1]
  dsimp only
  exact Pieces.out_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The loss sum of the image point `b` sees (zero beyond the grid). -/
def term (c : Dev nD) (b : ℕ) : EReal :=
  if h : b < cfg0.N then Point.imgSum (xblk m c ⟨b, h⟩) (tblk m c ⟨b, h⟩) else 0

/-- The accumulator after point `n` holds the sum of the images' sums up to `n`. -/
theorem acc_eq (c : Dev nD) : ∀ (n : ℕ) (hn : n < cfg0.N) (i : S1x1.Idx),
    (outsAt0 m c n hn).2 i = ∑ b ∈ Finset.range (n + 1), term m c b
  | 0, hn, i => by
    rw [acc_A m c ⟨0, hn⟩ rfl (by dsimp only; omega)]
    refine (Point.pay1_apply _ _ _ i).trans ?_
    rw [Point.pay3_apply, Cert.Spec.ofBits_zero, zero_add, Finset.sum_range_one]
    unfold term
    rw [dif_pos hn]
  | n + 1, hn, i => by
    have hN : cfg0.N = 16 := N_0
    have h0 : ¬(⟨n + 1, hn⟩ : Fin cfg0.N).val % 16 = 0 := by dsimp only; omega
    have step : (outsAt0 m c (n + 1) hn).2 = Pieces.acc (xblk m c ⟨n + 1, hn⟩) (tblk m c ⟨n + 1, hn⟩)
        (outsAt0 m c n (Nat.lt_of_succ_lt hn)).2 := by
      by_cases h1 : (⟨n + 1, hn⟩ : Fin cfg0.N).val % 16 = 15
      · exact acc_C m c ⟨n + 1, hn⟩ h0 h1
      · exact acc_B m c ⟨n + 1, hn⟩ h0 h1
    rw [step]
    refine (Point.pay1_apply _ _ _ i).trans ?_
    rw [acc_eq c n (Nat.lt_of_succ_lt hn) i, Finset.sum_range_succ _ (n + 1)]
    congr 1
    unfold term
    rw [dif_pos hn]

/-! ## The blocks are the batch's images -/

/-- The two arguments, as batches of images. -/
abbrev X0 (c : Dev nD) : Cert.Spec.Batch.Idx → EReal := m ((c : Thread nD τ).loc main_arg0)
abbrev X1 (c : Dev nD) : Cert.Spec.Batch.Idx → EReal := m ((c : Thread nD τ).loc main_arg1)

/-- Point `t`'s blocks are image `t` of each argument: the block index is `(t, 0, 0, 0)`. -/
theorem idx_facts : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0) :=
  (by decide +kernel : ∀ t : Fin grid0.N, _)

/-- Image number of a grid point. -/
abbrev img (t : Fin cfg0.N) : Fin 16 := ⟨t.val, lt_of_lt_of_eq t.isLt N_0⟩

theorem xblk_apply (c : Dev nD) (t : Fin cfg0.N) (y : S1024x1024.Idx) :
    k0_pay4 (xblk m c t) y = Cert.Spec.image (X0 m c) (img t) y := by
  unfold k0_pay4
  rw [shapeCast_apply _ shapeCasts_S1x1x1024x1024_S1024x1024 y (ix4 (0 : Fin 1) (0 : Fin 1) (y 0) (y 1)) (by
    rw [Shape.rowMajor_val_four, Shape.rowMajor_val_two]; simp)]
  show iblk m c 0 t _ = _
  unfold iblk
  rw [View.read_apply]
  show V m c main_arg0 _ = m ((c : Thread nD τ).loc main_arg0) _
  congr 1
  funext a
  apply Fin.ext
  match a with
  | ⟨0, _⟩ => show win0_0.index t 0 * 1 + 1 * 0 = t.val; rw [(idx_facts t).1.1]; omega
  | ⟨1, _⟩ => show win0_0.index t 1 * 1 + 1 * 0 = 0; rw [(idx_facts t).1.2.1]
  | ⟨2, _⟩ => show win0_0.index t 2 * 1024 + 1 * (y 0).val = (y 0).val; rw [(idx_facts t).1.2.2.1]; omega
  | ⟨3, _⟩ => show win0_0.index t 3 * 1024 + 1 * (y 1).val = (y 1).val; rw [(idx_facts t).1.2.2.2]; omega

theorem tblk_apply (c : Dev nD) (t : Fin cfg0.N) (y : S1024x1024.Idx) :
    k0_pay5 (tblk m c t) y = Cert.Spec.image (X1 m c) (img t) y := by
  unfold k0_pay5
  rw [shapeCast_apply _ shapeCasts_S1x1x1024x1024_S1024x1024 y (ix4 (0 : Fin 1) (0 : Fin 1) (y 0) (y 1)) (by
    rw [Shape.rowMajor_val_four, Shape.rowMajor_val_two]; simp)]
  show iblk m c 1 t _ = _
  unfold iblk
  rw [View.read_apply]
  show V m c main_arg1 _ = m ((c : Thread nD τ).loc main_arg1) _
  congr 1
  funext a
  apply Fin.ext
  match a with
  | ⟨0, _⟩ => show win0_1.index t 0 * 1 + 1 * 0 = t.val; rw [(idx_facts t).2.1]; omega
  | ⟨1, _⟩ => show win0_1.index t 1 * 1 + 1 * 0 = 0; rw [(idx_facts t).2.2.1]
  | ⟨2, _⟩ => show win0_1.index t 2 * 1024 + 1 * (y 0).val = (y 0).val; rw [(idx_facts t).2.2.2.1]; omega
  | ⟨3, _⟩ => show win0_1.index t 3 * 1024 + 1 * (y 1).val = (y 1).val; rw [(idx_facts t).2.2.2.2]; omega

/-- The target block of point `t`, as an image, is image `t` of the target batch. -/
theorem tblk_eq (c : Dev nD) (t : Fin cfg0.N) :
    (k0_pay5 (tblk m c t) : FVec Ideal S1024x1024 .f32) = Cert.Spec.image (X1 m c) (img t) :=
  funext (tblk_apply m c t)

/-- The loss sum point `b` adds is the specification's, over image `b` of the two batches. -/
theorem term_eq (c : Dev nD) (b : Fin 16) :
    term m c b.val = ∑ y : Cert.Spec.Img.Idx, Cert.Spec.pix (Cert.Spec.image (X0 m c) b y) (Cert.Spec.image (X1 m c) b y)
      (Dilate.dil (F := Ideal) (Cert.Spec.image (X1 m c) b) y) := by
  have hb : b.val < cfg0.N := by rw [show cfg0.N = 16 from N_0]; exact b.isLt
  unfold term
  rw [dif_pos hb]
  unfold Point.imgSum
  refine Finset.sum_congr rfl fun y _ => ?_
  rw [Point.lossImg_apply, xblk_apply, tblk_apply, tblk_eq]

/-! ## The result array and the scalar result -/

/-- The output word the last point writes: the sixteen images' sums added up, divided by 2²⁴. -/
theorem out_last (c : Dev nD) (t : Fin cfg0.N) (h15 : t.val = 15) (i : S1x1.Idx) :
    (outsAt0 m c t.val t.isLt).1 i = Cert.Bridge.total (X0 m c) (X1 m c) := by
  have hN : cfg0.N = 16 := N_0
  rw [out_C m c t (by omega) (by omega), Point.pay2_apply]
  unfold Cert.Bridge.total
  congr 1
  refine (Point.pay1_apply _ _ _ i).trans ?_
  rw [acc_eq m c (t.val - 1) _ i]
  have e : Point.imgSum (xblk m c t) (tblk m c t) = term m c t.val := by
    unfold term; rw [dif_pos t.isLt]
  rw [e, show t.val - 1 + 1 = t.val from by omega, ← Finset.sum_range_succ, h15, Finset.sum_range]
  exact Finset.sum_congr rfl fun b _ => term_eq m c b

/-- The one-word result array after the call. -/
abbrev outArr (c : Dev nD) : Buf (Elt Ideal) ((c : Thread nD τ).loc main_v0) := fun _ => Cert.Bridge.total (X0 m c) (X1 m c)

/-- The one write-back, at the last point, writes it. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, show (outsAt0 m c t0_15.val t0_15.isLt).1 = outArr m c from funext (out_last m c t0_15 rfl)]
  have hz' : (fun a => win0_2.index t0_15 a * main_v0.ty.shape.size a) = fun _ => 0 := funext fun a => by fin_cases a <;> decide
  exact (Memref.read_access_unit_zero (Elt Ideal) main_v0 hz' (fun a => by rw [congrFun hz' a]; simp) (outArr m c)).symm

/-- So the result array ends holding that word: the last point's block is the whole array. -/
theorem final_o (c : Dev nD) : (dats m 0 c).arrAt 2 cfg0.N = outArr m c :=
  (dats m 0 c).arrAt_eq_of_cover 2 (outArr m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- The host's reshape after the call reads the one word out as the scalar result. -/
theorem tail_eq (c : Dev nD) :
    Pipeline.afterTail₀ cfgs (dats m) 0 (V0 m) [hostOps1] c main_v1 = fun _ => Cert.Bridge.total (X0 m c) (X1 m c) := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N)
      (Proc.devRef .tc main_v0) = outArr m c :=
    (Pipeline.withArrays_arr spec0 launch0.win.arr_inj c _ _ 2).trans (final_o m c)
  rw [e]
  rfl

/-- The run, read: the scalar result at the batch's loss, the two arguments unchanged. -/
theorem run : θ_run defs (onTc (τ := τ) (main (F := Ideal))) ⟨m, fun _ => 0, ρ⟩ fun r => ∀ c : Dev nD,
      r.2.mem ((c : Thread nD τ).loc main_v1) = (fun _ => Cert.Bridge.total (X0 m c) (X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KRun

end
-- ==== Proof.lean ====
/-
  The certificate: the Pallas kernel and the jnp reference compute the same weighted binary-cross-entropy loss.

  Both programs weight each pixel's loss `max(x, 0) − x·t + log(1 + exp(−|x|))` by 20 where the target exceeds
  1/2, else by 5 where the 3×3 maximum of the target around the pixel exceeds 1/2, else by 1, and return the sum
  over all 16 · 1024 · 1024 pixels divided by 2²⁴. They differ in three ways, none of which changes the number over
  the extended reals:
  · the kernel pads the 3×3 window with zeros at the image's border, the reference with −∞; the maximum is only
    compared with 1/2, and since 1/2 is not below 0 both comparisons say that some pixel of the window inside the
    image has a target above 1/2;
  · the kernel writes `0 − |x|` where the reference negates;
  · the kernel adds up each image's row sums and accumulates the sixteen images' sums over its grid, the reference
    sums all pixels at once from a zero: addition of extended reals is commutative and associative, and `0 + a = a`.
  No step needs the inputs to be finite.

  The kernel's frames and the reference's run are the generated ones; the kernel's value is read off its frame run
  (the accumulator after each grid point, by induction on the point), the reference's off its run one operation at
  a time, and the two are joined pixel by pixel.
-/
import proofs.«168985_j10505490006429_1_alg».proof.Defs
import proofs.«168985_j10505490006429_1_alg».proof.Proof.Gen.Kernel
import proofs.«168985_j10505490006429_1_alg».proof.Proof.Gen.Kernel.Skeleton
import proofs.«168985_j10505490006429_1_alg».proof.Proof.Gen.Kernel.Launch
import proofs.«168985_j10505490006429_1_alg».proof.Proof.Gen.Kernel.Points
import proofs.«168985_j10505490006429_1_alg».proof.Proof.Gen.Kernel.Frame
import proofs.«168985_j10505490006429_1_alg».proof.Proof.Gen.KernelIdeal
import proofs.«168985_j10505490006429_1_alg».proof.Proof.Gen.KernelIdeal.Skeleton
import proofs.«168985_j10505490006429_1_alg».proof.Proof.Gen.KernelIdeal.Launch
import proofs.«168985_j10505490006429_1_alg».proof.Proof.Gen.KernelIdeal.Points
import proofs.«168985_j10505490006429_1_alg».proof.Proof.Gen.KernelIdeal.Frame
import proofs.«168985_j10505490006429_1_alg».proof.Proof.Gen.ReferenceIdeal
import proofs.«168985_j10505490006429_1_alg».proof.Proof.Gen.Pre_finite_inputs
import proofs.«168985_j10505490006429_1_alg».proof.Proof.Gen.ReferenceIdeal.Run
import proofs.«168985_j10505490006429_1_alg».proof.Proof.Gen.ReferenceIdeal.Read
import proofs.«168985_j10505490006429_1_alg».proof.Proof.Bridge
import proofs.«168985_j10505490006429_1_alg».proof.Proof.KRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the same scalar: the kernel's result array read through the host's reshape,
    and the reference's result, are the loss summed over the batch divided by 2²⁴. -/
theorem algebraic : Cert.algebraic_KernelIdeal_ReferenceIdeal := by
  intro m ρ m' ρ' _ hagree
  refine ⟨fun c _ => Cert.Bridge.total (Cert.KernelIdeal.KRun.X0 m c) (Cert.KernelIdeal.KRun.X1 m c),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  funext i
  exact Cert.Bridge.ref_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
